-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x32 .f32) (main_arg1 : IVec S2x1600000 32) (main_arg2 : FVec F S32x128 .f32) (main_arg3 : FVec F S128 .f32) (main_arg4 : FVec F S128x32 .f32) (main_arg5 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg4
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg5 main_v13 main_v16
-- ==== Kernel.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x32 : Shape := ⟨2, ![128, 32]⟩
abbrev S32 : Shape := ⟨1, ![32]⟩
abbrev S100000x16 : Shape := ⟨2, ![100000, 16]⟩
abbrev S1x1600000 : Shape := ⟨2, ![1, 1600000]⟩
abbrev S1600000 : Shape := ⟨1, ![1600000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S100000 : Shape := ⟨1, ![100000]⟩
abbrev S100000x1 : Shape := ⟨2, ![100000, 1]⟩
abbrev S10000x16 : Shape := ⟨2, ![10000, 16]⟩
abbrev S10000x32 : Shape := ⟨2, ![10000, 32]⟩
abbrev S10000x128 : Shape := ⟨2, ![10000, 128]⟩
abbrev S1x128 : Shape := ⟨2, ![1, 128]⟩
abbrev S1x32 : Shape := ⟨2, ![1, 32]⟩

abbrev nBuf : Space → Nat
  | .hbm => 41
  | .vmem => 10
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S100000x16, .f32⟩
  | .hbm, ⟨7, _⟩ => ⟨S100000x16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x16, .f32⟩
  | .hbm, ⟨23, _⟩ => ⟨S_, .f32⟩
  | .hbm, ⟨24, _⟩ => ⟨S100000x16, .f32⟩
  | .hbm, ⟨25, _⟩ => ⟨S3200000x1, .i32⟩
  | .hbm, ⟨26, _⟩ => ⟨S100000x16, .f32⟩
  | .hbm, ⟨27, _⟩ => ⟨S_, .f32⟩
  | .hbm, ⟨28, _⟩ => ⟨S3200000, .f32⟩
  | .hbm, ⟨29, _⟩ => ⟨S_, .f32⟩
  | .hbm, ⟨30, _⟩ => ⟨S100000, .f32⟩
  | .hbm, ⟨31, _⟩ => ⟨S3200000x1, .i32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x16, .f32⟩
  | .hbm, ⟨39, _⟩ => ⟨S100000x16, .f32⟩
  | .hbm, ⟨40, _⟩ => ⟨S100000x32, .f32⟩
  | .local _ .vmem, ⟨0, _⟩ => ⟨S10000x16, .f32⟩
  | .local _ .vmem, ⟨1, _⟩ => ⟨S10000x16, .f32⟩
  | .local _ .vmem, ⟨2, _⟩ => ⟨S10000x16, .f32⟩
  | .local _ .vmem, ⟨3, _⟩ => ⟨S10000x16, .f32⟩
  | .local _ .vmem, ⟨4, _⟩ => ⟨S32x128, .f32⟩
  | .local _ .vmem, ⟨5, _⟩ => ⟨S128, .f32⟩
  | .local _ .vmem, ⟨6, _⟩ => ⟨S128x32, .f32⟩
  | .local _ .vmem, ⟨7, _⟩ => ⟨S32, .f32⟩
  | .local _ .vmem, ⟨8, _⟩ => ⟨S10000x32, .f32⟩
  | .local _ .vmem, ⟨9, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S100000x32_S100000x16_0_0 : S100000x32.Slices ![0, 0] S100000x16
  slices_S100000x32_S100000x16_0_16 : S100000x32.Slices ![0, 16] S100000x16
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S1600000_S3200000_d0 : Shape.Concatenates [S1600000, S1600000] S3200000 0
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  concatenates_S10000x16_S10000x16_S10000x32_d1 : Shape.Concatenates [S10000x16, S10000x16] S10000x32 1
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  dot_S10000x32_S32x128_S10000x128_1_0_0_1_n_n_wf : DotDims.WF S10000x32 S32x128 S10000x128 [1] [0] [0] [1] [] []
  dot_S10000x128_S128x32_S10000x32_1_0_0_1_n_n_wf : DotDims.WF S10000x128 S128x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S100000x16.size a
  hwx0_1 : ∀ i : grid0.Coords, EltTy.bits .f32 = 32 ∨ (Rect.block (s := S100000x16) S10000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x32.size a ≤ S100000x32.size a
  hwx0_6 : ∀ i : grid0.Coords, EltTy.bits .f32 = 32 ∨ (Rect.block (s := S100000x32) S10000x32.size (cc0_transform_6 i) (hinb0_6 i)).WholeWords (EltTy.packing .f32)

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf

abbrev win0_0 : Pipeline.Window sig grid0 :=
  Pipeline.Window.ofSpec (Memref.whole main_v0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S10000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x32 : Shape := ⟨2, ![128, 32]⟩
abbrev S32 : Shape := ⟨1, ![32]⟩
abbrev S100000x16 : Shape := ⟨2, ![100000, 16]⟩
abbrev S1x1600000 : Shape := ⟨2, ![1, 1600000]⟩
abbrev S1600000 : Shape := ⟨1, ![1600000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1x32 : Shape := ⟨2, ![1, 32]⟩

abbrev nBuf : Space → Nat
  | .hbm => 52
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S100000x16, .f32⟩
  | .hbm, ⟨7, _⟩ => ⟨S100000x16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x16, .f32⟩
  | .hbm, ⟨23, _⟩ => ⟨S_, .f32⟩
  | .hbm, ⟨24, _⟩ => ⟨S100000x16, .f32⟩
  | .hbm, ⟨25, _⟩ => ⟨S3200000x1, .i32⟩
  | .hbm, ⟨26, _⟩ => ⟨S100000x16, .f32⟩
  | .hbm, ⟨27, _⟩ => ⟨S_, .f32⟩
  | .hbm, ⟨28, _⟩ => ⟨S3200000, .f32⟩
  | .hbm, ⟨29, _⟩ => ⟨S_, .f32⟩
  | .hbm, ⟨30, _⟩ => ⟨S100000, .f32⟩
  | .hbm, ⟨31, _⟩ => ⟨S3200000x1, .i32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x16, .f32⟩
  | .hbm, ⟨39, _⟩ => ⟨S100000x16, .f32⟩
  | .hbm, ⟨40, _⟩ => ⟨S100000x32, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S100000x32, .f32⟩
  | .hbm, ⟨49, _⟩ => ⟨S1x32, .f32⟩
  | .hbm, ⟨50, _⟩ => ⟨S100000x32, .f32⟩
  | .hbm, ⟨51, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call1_cst : Ref sig .tc := ⟨.hbm, 45, rfl⟩
abbrev main_call1_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  slices_S100000x32_S100000x16_0_0 : S100000x32.Slices ![0, 0] S100000x16
  slices_S100000x32_S100000x16_0_16 : S100000x32.Slices ![0, 16] S100000x16
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S1600000_S3200000_d0 : Shape.Concatenates [S1600000, S1600000] S3200000 0
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  concatenates_S100000x16_S100000x16_S100000x32_d1 : Shape.Concatenates [S100000x16, S100000x16] S100000x32 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  dot_S100000x32_S32x128_S100000x128_1_0_0_1_n_n_wf : DotDims.WF S100000x32 S32x128 S100000x128 [1] [0] [0] [1] [] []
  dot_S100000x128_S128x32_S100000x32_1_0_0_1_n_n_wf : DotDims.WF S100000x128 S128x32 S100000x32 [1] [0] [0] [1] [] []

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf

class Facts : Prop extends Facts₀ where

variable [Facts]
-- ==== Proof.MlpSpec.lean ====
/-
  The function both programs compute on one row, over the extended reals.

  A row of thirty-two features `x` goes through two affine layers with a rectification between them:
  hidden unit `k` is `max (∑ j, x j · W1[j,k] + b1[k]) 0`, and output `q` is `∑ k, hidden k · W2[k,q] + b2[q]`.
  Nothing here depends on how many rows an array has, so the same function describes one row of a block of ten
  thousand rows and one row of the whole array of a hundred thousand. The zero of the rectification is kept as the
  word both programs print; it is never evaluated. No law of the extended reals is needed: both programs compute
  this very expression, sum for sum.
-/
import Idealize.ShloMosaic.PureOps.Ideal
import Idealize.ShloMosaic.Lib.ValueIdx

noncomputable section

open scoped BigOperators

namespace Cert.Mlp

open Idealize.ShloMosaic Idealize.ShloMosaic.ValueIdx

/-- The threshold of the rectification: the all-zero single-precision word, as an extended real. -/
abbrev floor0 : EReal := Ideal.ofBits .f32 0x00000000#32

/-- Hidden unit `k` of a row: the first affine layer, rectified. -/
def hidden (x : Fin 32 → EReal) (W1 : FVec Ideal ⟨2, ![32, 128]⟩ .f32) (b1 : FVec Ideal ⟨1, ![128]⟩ .f32) (k : Fin 128) : EReal :=
  max ((∑ j : Fin 32, x j * W1 (ix2 j k)) + b1 (ix1 k)) floor0

/-- Output `q` of a row: the second affine layer over the hidden units. -/
def row (x : Fin 32 → EReal) (W1 : FVec Ideal ⟨2, ![32, 128]⟩ .f32) (b1 : FVec Ideal ⟨1, ![128]⟩ .f32)
    (W2 : FVec Ideal ⟨2, ![128, 32]⟩ .f32) (b2 : FVec Ideal ⟨1, ![32]⟩ .f32) (q : Fin 32) : EReal :=
  (∑ k : Fin 128, hidden x W1 b1 k * W2 (ix2 k q)) + b2 (ix1 q)

/-- The whole result: row `i 0` of the joined features `feat` (a hundred thousand rows of thirty-two) through the two
    layers, read at column `i 1`. -/
def whole (feat : FVec Ideal ⟨2, ![100000, 32]⟩ .f32) (W1 : FVec Ideal ⟨2, ![32, 128]⟩ .f32) (b1 : FVec Ideal ⟨1, ![128]⟩ .f32)
    (W2 : FVec Ideal ⟨2, ![128, 32]⟩ .f32) (b2 : FVec Ideal ⟨1, ![32]⟩ .f32) : FVec Ideal ⟨2, ![100000, 32]⟩ .f32 :=
  fun i => row (fun j => feat (ix2 (i 0) j)) W1 b1 W2 b2 (i 1)

end Cert.Mlp

end
-- ==== Proof.RefIsMlp.lean ====
/-
  The reference, read index by index: its result at row `r`, column `q` is the two-layer function of row `r` of
  the array it joins from the radial features and the neighbour means, with the weights and biases it was given.

  The reference's last ten operations are a matrix product with `W1` (a sum over the thirty-two features), the bias
  `b1` broadcast along the rows, a maximum with a broadcast zero, a matrix product with `W2` (a sum over the hundred and
  twenty-eight hidden units) and the bias `b2` broadcast along the rows. Reading each at an index and naming the
  operand indices by their coordinates gives the specification's expression, term for term.
-/
import proofs.«170148_j987842478111_1_alg».proof.Proof.Gen.ReferenceIdeal.Read
import proofs.«170148_j987842478111_1_alg».proof.Proof.MlpSpec

noncomputable section

open scoped BigOperators

namespace Cert.RefMlp

open Idealize.ShloMosaic Idealize.ShloMosaic.ValueIdx
open Cert.ReferenceIdeal Cert.ReferenceIdeal.Read

/-! The operand indices of the two products and the two bias broadcasts, by coordinates. -/

theorem feat_idx (r : Fin 100000) (q : Fin 32) (k : Fin 128) (j : Fin 32) :
    lidx_main_v27 (lidx_main_v32 (ix2 r q) k) j = ix2 r j :=
  funext fun a => match a with | ⟨0, _⟩ => rfl | ⟨1, _⟩ => rfl

theorem w1_idx (r : Fin 100000) (q : Fin 32) (k : Fin 128) (j : Fin 32) :
    ridx_main_v27 (lidx_main_v32 (ix2 r q) k) j = ix2 j k :=
  funext fun a => match a with | ⟨0, _⟩ => rfl | ⟨1, _⟩ => rfl

theorem b1_idx (r : Fin 100000) (q : Fin 32) (k : Fin 128) :
    idx_main_v28 (idx_main_v29 (lidx_main_v32 (ix2 r q) k)) = ix1 k :=
  funext fun a => match a with | ⟨0, _⟩ => rfl

theorem w2_idx (r : Fin 100000) (q : Fin 32) (k : Fin 128) :
    ridx_main_v32 (ix2 r q) k = ix2 k q :=
  funext fun a => match a with | ⟨0, _⟩ => rfl | ⟨1, _⟩ => rfl

theorem b2_idx (r : Fin 100000) (q : Fin 32) :
    idx_main_v33 (idx_main_v34 (ix2 r q)) = ix1 q :=
  funext fun a => match a with | ⟨0, _⟩ => rfl

/-- The reference's result is the two-layer function of its joined feature array, row by row. -/
theorem result_eq (x0 : FVec Ideal S100000x32 .f32) (x1 : IVec S2x1600000 32) (x2 : FVec Ideal S32x128 .f32)
    (x3 : FVec Ideal S128 .f32) (x4 : FVec Ideal S128x32 .f32) (x5 : FVec Ideal S32 .f32) :
    val_main_v35 (F := Ideal) x0 x1 x2 x3 x4 x5 = Cert.Mlp.whole (val_main_v26 (F := Ideal) x0 x1) x2 x3 x4 x5 := by
  funext i
  obtain ⟨r, q, rfl⟩ : ∃ (r : Fin 100000) (q : Fin 32), i = ix2 r q := ⟨i 0, i 1, eq_ix2 i⟩
  rw [val_main_v35_apply, val_main_v32_apply, val_main_v34_apply, val_main_v33_apply]
  simp only [val_main_v31_apply, val_main_v30_apply, val_main_v27_apply, val_main_v29_apply, val_main_v28_apply,
    val_main_call1_v0_apply, val_main_call1_cst_apply, feat_idx, w1_idx, b1_idx, w2_idx, b2_idx,
    Ideal.addf_def, Ideal.maximumf_def, Ideal.ofBits_def]
  rfl

end Cert.RefMlp

end
-- ==== Proof.KernelRow.lean ====
/-
  The kernel body's stored value, read at row `p`, column `q` of a block of ten thousand rows: the two-layer function
  of row `p` of the block it joins from its two loaded sixteen-column blocks, with the weights and biases it loaded.

  The body joins the two blocks along the columns, multiplies by `W1` on the matrix unit into a zero accumulator (at the
  ideal values the sum over the thirty-two features; the changes of format before it are the identity), adds `b1`
  viewed as one row and broadcast down the rows, takes the maximum with a broadcast zero, multiplies by `W2` (the sum
  over the hundred and twenty-eight hidden units) and adds `b2` the same way.
-/
import proofs.«170148_j987842478111_1_alg».proof.Proof.Gen.KernelIdeal.Skeleton
import proofs.«170148_j987842478111_1_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelRow

open Idealize.ShloMosaic Idealize.ShloMosaic.ValueIdx
open Cert.KernelIdeal Cert.KernelIdeal.Gen

/-! ## The first product: a row of the joined block against a column of `W1` -/

theorem lhs1_0 (i : S10000x128.Idx) (c : dot_S10000x32_S32x128_S10000x128_1_0_0_1_n_n.contr.Idx) :
    (dot_S10000x32_S32x128_S10000x128_1_0_0_1_n_n.lhsIdx i c 0).val = (i 0).val := by
  unfold DotDims.lhsIdx
  rw [dif_neg (show ¬(0 : Fin S10000x32.rank) ∈ dot_S10000x32_S32x128_S10000x128_1_0_0_1_n_n.lhsBatch by decide), dif_pos (show (0 : Fin S10000x32.rank) ∈ dot_S10000x32_S32x128_S10000x128_1_0_0_1_n_n.lhsNonContracting by decide)]
  rfl
theorem lhs1_1 (i : S10000x128.Idx) (c : dot_S10000x32_S32x128_S10000x128_1_0_0_1_n_n.contr.Idx) :
    (dot_S10000x32_S32x128_S10000x128_1_0_0_1_n_n.lhsIdx i c 1).val = (c ⟨0, by decide⟩).val :=
  dot_S10000x32_S32x128_S10000x128_1_0_0_1_n_n.lhsIdx_val_of_single rfl i c
theorem rhs1_0 (i : S10000x128.Idx) (c : dot_S10000x32_S32x128_S10000x128_1_0_0_1_n_n.contr.Idx) :
    (dot_S10000x32_S32x128_S10000x128_1_0_0_1_n_n.rhsIdx i c 0).val = (c ⟨0, by decide⟩).val :=
  dot_S10000x32_S32x128_S10000x128_1_0_0_1_n_n.rhsIdx_val_of_single rfl i c
theorem rhs1_1 (i : S10000x128.Idx) (c : dot_S10000x32_S32x128_S10000x128_1_0_0_1_n_n.contr.Idx) :
    (dot_S10000x32_S32x128_S10000x128_1_0_0_1_n_n.rhsIdx i c 1).val = (i 1).val := by
  unfold DotDims.rhsIdx
  rw [dif_neg (show ¬(1 : Fin S32x128.rank) ∈ dot_S10000x32_S32x128_S10000x128_1_0_0_1_n_n.rhsBatch by decide), dif_pos (show (1 : Fin S32x128.rank) ∈ dot_S10000x32_S32x128_S10000x128_1_0_0_1_n_n.rhsNonContracting by decide)]
  rfl

/-- Into a zero accumulator the matrix unit's product at `(p, k)` is the sum over the thirty-two shared coordinates. -/
theorem first_product (A : FVec Ideal S10000x32 .bf16) (B : FVec Ideal S32x128 .bf16) (p : Fin 10000) (k : Fin 128) :
    matmul dot_S10000x32_S32x128_S10000x128_1_0_0_1_n_n none A B (constant (F := Ideal) S10000x128 .f32 0x00000000#32) (ix2 p k)
      = ∑ j : Fin 32, A (ix2 p j) * B (ix2 j k) := by
  refine (Ideal.matmul_constant_zero_apply dot_S10000x32_S32x128_S10000x128_1_0_0_1_n_n none A B (ix2 p k)).trans ?_
  rw [← Equiv.sum_comp (contrEquiv1 dot_S10000x32_S32x128_S10000x128_1_0_0_1_n_n 32 rfl rfl).symm]
  refine Finset.sum_congr rfl fun j _ => ?_
  have hj := contrEquiv1_symm_val dot_S10000x32_S32x128_S10000x128_1_0_0_1_n_n 32 rfl rfl j
  have el : dot_S10000x32_S32x128_S10000x128_1_0_0_1_n_n.lhsIdx (ix2 p k) ((contrEquiv1 dot_S10000x32_S32x128_S10000x128_1_0_0_1_n_n 32 rfl rfl).symm j) = ix2 p j := funext fun a => Fin.ext (by
    match a with
    | ⟨0, _⟩ => exact lhs1_0 _ _
    | ⟨1, _⟩ => exact (lhs1_1 _ _).trans hj)
  have er : dot_S10000x32_S32x128_S10000x128_1_0_0_1_n_n.rhsIdx (ix2 p k) ((contrEquiv1 dot_S10000x32_S32x128_S10000x128_1_0_0_1_n_n 32 rfl rfl).symm j) = ix2 j k := funext fun a => Fin.ext (by
    match a with
    | ⟨0, _⟩ => exact (rhs1_0 _ _).trans hj
    | ⟨1, _⟩ => exact rhs1_1 _ _)
  rw [el, er]

/-! ## The second product: a row of hidden units against a column of `W2` -/

theorem lhs2_0 (i : S10000x32.Idx) (c : dot_S10000x128_S128x32_S10000x32_1_0_0_1_n_n.contr.Idx) :
    (dot_S10000x128_S128x32_S10000x32_1_0_0_1_n_n.lhsIdx i c 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem lhs2_1 (i : S10000x32.Idx) (c : dot_S10000x128_S128x32_S10000x32_1_0_0_1_n_n.contr.Idx) :
    (dot_S10000x128_S128x32_S10000x32_1_0_0_1_n_n.lhsIdx i c 1).val = (c ⟨0, by decide⟩).val :=
  dot_S10000x128_S128x32_S10000x32_1_0_0_1_n_n.lhsIdx_val_of_single rfl i c
theorem rhs2_0 (i : S10000x32.Idx) (c : dot_S10000x128_S128x32_S10000x32_1_0_0_1_n_n.contr.Idx) :
    (dot_S10000x128_S128x32_S10000x32_1_0_0_1_n_n.rhsIdx i c 0).val = (c ⟨0, by decide⟩).val :=
  dot_S10000x128_S128x32_S10000x32_1_0_0_1_n_n.rhsIdx_val_of_single rfl i c
theorem rhs2_1 (i : S10000x32.Idx) (c : dot_S10000x128_S128x32_S10000x32_1_0_0_1_n_n.contr.Idx) :
    (dot_S10000x128_S128x32_S10000x32_1_0_0_1_n_n.rhsIdx i c 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- Into a zero accumulator the matrix unit's product at `(p, q)` is the sum over the hundred and twenty-eight shared
    coordinates. -/
theorem second_product (A : FVec Ideal S10000x128 .bf16) (B : FVec Ideal S128x32 .bf16) (p : Fin 10000) (q : Fin 32) :
    matmul dot_S10000x128_S128x32_S10000x32_1_0_0_1_n_n none A B (constant (F := Ideal) S10000x32 .f32 0x00000000#32) (ix2 p q)
      = ∑ k : Fin 128, A (ix2 p k) * B (ix2 k q) := by
  refine (Ideal.matmul_constant_zero_apply dot_S10000x128_S128x32_S10000x32_1_0_0_1_n_n none A B (ix2 p q)).trans ?_
  rw [← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx (ix2 p q) ((contrEquiv1 dot_S10000x128_S128x32_S10000x32_1_0_0_1_n_n 128 rfl rfl).symm k) = ix2 p k := funext fun a => Fin.ext (by
    match a with
    | ⟨0, _⟩ => exact lhs2_0 _ _
    | ⟨1, _⟩ => exact (lhs2_1 _ _).trans hk)
  have er : dot_S10000x128_S128x32_S10000x32_1_0_0_1_n_n.rhsIdx (ix2 p q) ((contrEquiv1 dot_S10000x128_S128x32_S10000x32_1_0_0_1_n_n 128 rfl rfl).symm k) = ix2 k q := funext fun a => Fin.ext (by
    match a with
    | ⟨0, _⟩ => exact (rhs2_0 _ _).trans hk
    | ⟨1, _⟩ => exact rhs2_1 _ _)
  rw [el, er]

/-! ## The body's stored value at an index -/

/-- The block the body joins from its two loaded blocks: the first sixteen columns from the first, the rest from the
    second. -/
abbrev joined (v0 v2 : FVec Ideal S10000x16 .f32) : FVec Ideal S10000x32 .f32 :=
  concatenate S10000x32 1 [⟨S10000x16, v0⟩, ⟨S10000x16, v2⟩] Facts₀.concatenates_S10000x16_S10000x16_S10000x32_d1

/-- Hidden unit `k` of row `p`, as the body computes it. -/
theorem hidden_apply (v0 v2 : FVec Ideal S10000x16 .f32) (v6 : FVec Ideal S32x128 .f32) (v9 : FVec Ideal S128 .f32)
    (p : Fin 10000) (k : Fin 128) :
    maximumf (addf (matmul dot_S10000x32_S32x128_S10000x128_1_0_0_1_n_n none (truncf .bf16 (joined v0 v2) Facts₀.bitsLt_bf16_f32)
        (truncf .bf16 v6 Facts₀.bitsLt_bf16_f32) (constant (F := Ideal) S10000x128 .f32 0x00000000#32))
        (broadcastTo S10000x128 (shapeCast S1x128 v9 Facts₀.shapeCasts_S128_S1x128) Facts₀.broadcasts_S1x128_S10000x128))
      (broadcast S10000x128 (Scalar.ofBits (F := Ideal) .f32 0x00000000#32)) (ix2 p k)
      = Cert.Mlp.hidden (fun j => joined v0 v2 (ix2 p j)) v6 v9 k := by
  unfold Cert.Mlp.hidden
  refine (maximumf_apply _ _ _).trans ?_
  congr 1
  refine (addf_apply _ _ _).trans ?_
  congr 1
  · exact first_product _ _ p k
  · exact (broadcastTo_1b_ab_apply _ _ p k).trans (shapeCast_a_1a_apply _ _ 0 k)

/-- The stored value at row `p`, column `q` of the block. -/
theorem pay_apply (v0 v2 : FVec Ideal S10000x16 .f32) (v6 : FVec Ideal S32x128 .f32) (v9 : FVec Ideal S128 .f32)
    (v16 : FVec Ideal S128x32 .f32) (v19 : FVec Ideal S32 .f32) (p : Fin 10000) (q : Fin 32) :
    k0_pay1 (F := Ideal) v0 v2 v6 v9 v16 v19 (ix2 p q)
      = Cert.Mlp.row (fun j => joined v0 v2 (ix2 p j)) v6 v9 v16 v19 q := by
  unfold k0_pay1
  rw [shapeCast_self, shapeCast_self]
  unfold Cert.Mlp.row
  refine (addf_apply _ _ _).trans ?_
  congr 1
  · refine (second_product _ _ p q).trans ?_
    refine Finset.sum_congr rfl fun k _ => ?_
    congr 1
    exact hidden_apply v0 v2 v6 v9 p k
  · exact (broadcastTo_1b_ab_apply _ _ p q).trans (shapeCast_a_1a_apply _ _ 0 q)

end Cert.KernelRow

end
-- ==== Proof.KernelPoint.lean ====
/-
  One grid point of the kernel against the whole-array function.

  Point `T` of the ten loads rows `10000·T … 10000·T + 9999` of the radial features and of the neighbour means. Joining the
  two loaded blocks along the columns gives the same rows of the two whole arrays joined along the columns: a column
  below sixteen comes from the first piece in both, a column from sixteen on from the second, sixteen less. So what the
  body stores at row `p`, column `q` of its block is the whole-array function at row `10000·T + p`, column `q`.
-/
import proofs.«170148_j987842478111_1_alg».proof.Proof.KernelRow

noncomputable section

open scoped BigOperators

namespace Cert.KernelPoint

open Idealize.ShloMosaic Idealize.ShloMosaic.ValueIdx
open Cert.KernelIdeal Cert.KernelIdeal.Gen

/-- Two `n × 16` arrays joined along the columns, read at a column below sixteen: the first array there. -/
theorem join_left {α : Type} {n : ℕ} (a b : (⟨2, ![n, 16]⟩ : Shape).Idx → α)
    (h : Shape.Concatenates [(⟨2, ![n, 16]⟩ : Shape), (⟨2, ![n, 16]⟩ : Shape)] (⟨2, ![n, 32]⟩ : Shape) 1)
    (r : Fin n) (j : Fin 32) (hj : j.val < 16) :
    concatenate (⟨2, ![n, 32]⟩ : Shape) 1 [⟨(⟨2, ![n, 16]⟩ : Shape), a⟩, ⟨(⟨2, ![n, 16]⟩ : Shape), b⟩] h (ix2 r j)
      = a (ix2 r ⟨j.val, hj⟩) :=
  concatenate_pair_apply_left 1 a b h (ix2 r j) rfl (ix2 r ⟨j.val, hj⟩)
    (fun ax => match ax with | ⟨0, _⟩ => rfl | ⟨1, _⟩ => rfl)

/-- Read at a column from sixteen on: the second array, sixteen columns back. -/
theorem join_right {α : Type} {n : ℕ} (a b : (⟨2, ![n, 16]⟩ : Shape).Idx → α)
    (h : Shape.Concatenates [(⟨2, ![n, 16]⟩ : Shape), (⟨2, ![n, 16]⟩ : Shape)] (⟨2, ![n, 32]⟩ : Shape) 1)
    (r : Fin n) (j : Fin 32) (hj : 16 ≤ j.val) :
    concatenate (⟨2, ![n, 32]⟩ : Shape) 1 [⟨(⟨2, ![n, 16]⟩ : Shape), a⟩, ⟨(⟨2, ![n, 16]⟩ : Shape), b⟩] h (ix2 r j)
      = b (ix2 r ⟨j.val - 16, by have := j.isLt; omega⟩) :=
  concatenate_pair_apply_right 1 a b h (ix2 r j) rfl rfl (ix2 r ⟨j.val - 16, by have := j.isLt; omega⟩)
    (fun ax hax => match ax with
      | ⟨0, _⟩ => rfl
      | ⟨1, _⟩ => absurd rfl hax)
    (by show j.val - 16 + 16 = j.val; omega)

/-- What the body stores at `(p, q)` when its two loaded blocks are rows `10000·T + ·` of two whole arrays `R`, `A`:
    the whole-array function of `R` and `A` joined, at row `10000·T + p`, column `q`. -/
theorem point_eq (x0 x1 : FVec Ideal S10000x16 .f32) (x2 : FVec Ideal S32x128 .f32) (x3 : FVec Ideal S128 .f32)
    (x4 : FVec Ideal S128x32 .f32) (x5 : FVec Ideal S32 .f32)
    (R A : FVec Ideal (⟨2, ![100000, 16]⟩ : Shape) .f32)
    (hcat : Shape.Concatenates [(⟨2, ![100000, 16]⟩ : Shape), (⟨2, ![100000, 16]⟩ : Shape)] (⟨2, ![100000, 32]⟩ : Shape) 1)
    (T : ℕ) (hT : T < 10)
    (h0 : ∀ (p : Fin 10000) (j : Fin 16), x0 (ix2 p j) = R (ix2 ⟨10000 * T + p.val, by have := p.isLt; omega⟩ j))
    (h1 : ∀ (p : Fin 10000) (j : Fin 16), x1 (ix2 p j) = A (ix2 ⟨10000 * T + p.val, by have := p.isLt; omega⟩ j))
    (p : Fin 10000) (q : Fin 32) :
    k0_pay1 (F := Ideal) x0 x1 x2 x3 x4 x5 (ix2 p q)
      = Cert.Mlp.whole (concatenate (⟨2, ![100000, 32]⟩ : Shape) 1
          [⟨(⟨2, ![100000, 16]⟩ : Shape), R⟩, ⟨(⟨2, ![100000, 16]⟩ : Shape), A⟩] hcat) x2 x3 x4 x5
          (ix2 ⟨10000 * T + p.val, by have := p.isLt; omega⟩ q) := by
  rw [Cert.KernelRow.pay_apply]
  show Cert.Mlp.row _ x2 x3 x4 x5 q = Cert.Mlp.row _ x2 x3 x4 x5 q
  congr 1
  funext j
  by_cases hj : j.val < 16
  · exact (join_left (n := 10000) x0 x1 _ p j hj).trans ((h0 p ⟨j.val, hj⟩).trans (join_left (n := 100000) R A hcat _ j hj).symm)
  · have hj' : 16 ≤ j.val := Nat.le_of_not_lt hj
    exact (join_right (n := 10000) x0 x1 _ p j hj').trans ((h1 p ⟨j.val - 16, by have := j.isLt; omega⟩).trans (join_right (n := 100000) R A hcat _ j hj').symm)

end Cert.KernelPoint

end
-- ==== Proof.KernelBlocks.lean ====
/-
  The kernel's blocks as rows of whatever array a window is over.

  The grid has ten points. At point `t` the two feature windows and the result window are at block `(t, 0)` — rows
  `10000·t … 10000·t + 9999`, all columns — and the weights and biases are at block zero, which is the whole array.
  An element of a block sits in its array, on each axis, at the block index times the block's size plus its own
  coordinate; with the block indices decided over the ten points that is row `10000·t + p` for the row blocks and the
  element's own index for the whole-array blocks. Every read below is stated for an arbitrary array under the window,
  so that nothing depends on how the array was computed.
-/
import proofs.«170148_j987842478111_1_alg».proof.Proof.Gen.KernelIdeal.Frame
import Idealize.ShloMosaic.Lib.ValueIdx
import Idealize.ShloMosaic.Lib.Pipeline.Value
import Idealize.ShloMosaic.PureOps.Ideal

noncomputable section

namespace Cert.KernelBlocks

open Idealize.ShloMosaic Idealize.ShloMosaic.TcCoe Idealize.SL.Sem Idealize.ShloMosaic.ValueIdx
open Cert.KernelIdeal Cert.KernelIdeal.Gen

/-- The block indices, decided over the ten points. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem point_lt (t : Fin cfg0.N) : t.val < 10 := by
  have h := t.isLt; have hN : cfg0.N = 10 := N_0; omega

/-! ## Where a block's element sits in its array -/

theorem radial_index (t : Fin cfg0.N) (p : Fin 10000) (j : Fin 16) :
    ((cfg0.win 0).blk t).view.emb (ix2 p j)
      = (ix2 ⟨10000 * t.val + p.val, by have := p.isLt; have := point_lt t; omega⟩ j : S100000x16.Idx) := by
  obtain ⟨e0, e1, -⟩ := block_indices t
  funext a
  apply Fin.ext
  match a with
  | ⟨0, _⟩ => show win0_0.index t (0 : Fin 2) * 10000 + 1 * p.val = 10000 * t.val + p.val; rw [e0]; omega
  | ⟨1, _⟩ => show win0_0.index t (1 : Fin 2) * 16 + 1 * j.val = j.val; rw [e1]; omega

theorem means_index (t : Fin cfg0.N) (p : Fin 10000) (j : Fin 16) :
    ((cfg0.win 1).blk t).view.emb (ix2 p j)
      = (ix2 ⟨10000 * t.val + p.val, by have := p.isLt; have := point_lt t; omega⟩ j : S100000x16.Idx) := by
  obtain ⟨-, -, e0, e1, -⟩ := block_indices t
  funext a
  apply Fin.ext
  match a with
  | ⟨0, _⟩ => show win0_1.index t (0 : Fin 2) * 10000 + 1 * p.val = 10000 * t.val + p.val; rw [e0]; omega
  | ⟨1, _⟩ => show win0_1.index t (1 : Fin 2) * 16 + 1 * j.val = j.val; rw [e1]; omega

theorem w1_index (t : Fin cfg0.N) (y : S32x128.Idx) : ((cfg0.win 2).blk t).view.emb y = y := by
  obtain ⟨-, -, -, -, e0, e1, -⟩ := block_indices t
  funext a
  apply Fin.ext
  match a with
  | ⟨0, _⟩ => show win0_2.index t (0 : Fin 2) * 32 + 1 * (y 0).val = (y 0).val; rw [e0]; omega
  | ⟨1, _⟩ => show win0_2.index t (1 : Fin 2) * 128 + 1 * (y 1).val = (y 1).val; rw [e1]; omega

theorem b1_index (t : Fin cfg0.N) (y : S128.Idx) : ((cfg0.win 3).blk t).view.emb y = y := by
  obtain ⟨-, -, -, -, -, -, e0, -⟩ := block_indices t
  funext a
  apply Fin.ext
  match a with
  | ⟨0, _⟩ => show win0_3.index t (0 : Fin 1) * 128 + 1 * (y 0).val = (y 0).val; rw [e0]; omega

theorem w2_index (t : Fin cfg0.N) (y : S128x32.Idx) : ((cfg0.win 4).blk t).view.emb y = y := by
  obtain ⟨-, -, -, -, -, -, -, e0, e1, -⟩ := block_indices t
  funext a
  apply Fin.ext
  match a with
  | ⟨0, _⟩ => show win0_4.index t (0 : Fin 2) * 128 + 1 * (y 0).val = (y 0).val; rw [e0]; omega
  | ⟨1, _⟩ => show win0_4.index t (1 : Fin 2) * 32 + 1 * (y 1).val = (y 1).val; rw [e1]; omega

theorem b2_index (t : Fin cfg0.N) (y : S32.Idx) : ((cfg0.win 5).blk t).view.emb y = y := by
  obtain ⟨-, -, -, -, -, -, -, -, -, e0, -⟩ := block_indices t
  funext a
  apply Fin.ext
  match a with
  | ⟨0, _⟩ => show win0_5.index t (0 : Fin 1) * 32 + 1 * (y 0).val = (y 0).val; rw [e0]; omega

/-- Where an element of point `t`'s result block sits in the result array. -/
theorem result_index (t : Fin cfg0.N) (p : Fin 10000) (q : Fin 32) :
    ((cfg0.win 6).blk t).view.emb (ix2 p q)
      = (ix2 ⟨10000 * t.val + p.val, by have := p.isLt; have := point_lt t; omega⟩ q : S100000x32.Idx) := by
  obtain ⟨-, -, -, -, -, -, -, -, -, -, e0, e1⟩ := block_indices t
  funext a
  apply Fin.ext
  match a with
  | ⟨0, _⟩ => show win0_6.index t (0 : Fin 2) * 10000 + 1 * p.val = 10000 * t.val + p.val; rw [e0]; omega
  | ⟨1, _⟩ => show win0_6.index t (1 : Fin 2) * 32 + 1 * q.val = q.val; rw [e1]; omega

/-! ## A block read off an arbitrary array -/

/-- Point `t`'s block of any array under the first feature window is rows `10000·t + ·` of it. -/
theorem radial_read (A : FVec Ideal S100000x16 .f32) (t : Fin cfg0.N) (p : Fin 10000) (j : Fin 16) :
    ((cfg0.win 0).blk t).view.read (Elt Ideal) A (ix2 p j)
      = A (ix2 ⟨10000 * t.val + p.val, by have := p.isLt; have := point_lt t; omega⟩ j) := by
  rw [View.read_apply]
  show A (((cfg0.win 0).blk t).view.emb (ix2 p j)) = _
  rw [radial_index t p j]

/-- The same under the second feature window. -/
theorem means_read (A : FVec Ideal S100000x16 .f32) (t : Fin cfg0.N) (p : Fin 10000) (j : Fin 16) :
    ((cfg0.win 1).blk t).view.read (Elt Ideal) A (ix2 p j)
      = A (ix2 ⟨10000 * t.val + p.val, by have := p.isLt; have := point_lt t; omega⟩ j) := by
  rw [View.read_apply]
  show A (((cfg0.win 1).blk t).view.emb (ix2 p j)) = _
  rw [means_index t p j]

/-- The block of any array under the first weight window is the array. -/
theorem w1_read (A : FVec Ideal S32x128 .f32) (t : Fin cfg0.N) :
    ((cfg0.win 2).blk t).view.read (Elt Ideal) A = A := by
  funext y
  rw [View.read_apply]
  show A (((cfg0.win 2).blk t).view.emb y) = _
  rw [w1_index t y]

theorem b1_read (A : FVec Ideal S128 .f32) (t : Fin cfg0.N) :
    ((cfg0.win 3).blk t).view.read (Elt Ideal) A = A := by
  funext y
  rw [View.read_apply]
  show A (((cfg0.win 3).blk t).view.emb y) = _
  rw [b1_index t y]

theorem w2_read (A : FVec Ideal S128x32 .f32) (t : Fin cfg0.N) :
    ((cfg0.win 4).blk t).view.read (Elt Ideal) A = A := by
  funext y
  rw [View.read_apply]
  show A (((cfg0.win 4).blk t).view.emb y) = _
  rw [w2_index t y]

theorem b2_read (A : FVec Ideal S32 .f32) (t : Fin cfg0.N) :
    ((cfg0.win 5).blk t).view.read (Elt Ideal) A = A := by
  funext y
  rw [View.read_apply]
  show A (((cfg0.win 5).blk t).view.emb y) = _
  rw [b2_index t y]

/-- Point `t`'s block of any array under the result window, read at `(p, q)`, is the array at row `10000·t + p`. -/
theorem result_read (G : FVec Ideal S100000x32 .f32) (t : Fin cfg0.N) (p : Fin 10000) (q : Fin 32) :
    ((cfg0.win 6).blk t).view.read (Elt Ideal) G (ix2 p q)
      = G (ix2 ⟨10000 * t.val + p.val, by have := p.isLt; have := point_lt t; omega⟩ q) := by
  rw [View.read_apply]
  show G (((cfg0.win 6).blk t).view.emb (ix2 p q)) = _
  rw [result_index t p q]

/-- The result window is never cut: what the write-back moves is the whole block. -/
theorem result_uncut (X : FVec Ideal S10000x32 .f32) (t : Fin cfg0.N) :
    (cfg0.win 6).cut (grid0.coords t) X = X := rfl

end Cert.KernelBlocks

end
-- ==== Proof.KernelValue.lean ====
/-
  From the kernel's blocks to its result array.

  What point `t` of the grid writes at row `p`, column `q` of its block is the two-layer function of the joined feature
  array at row `10000·t + p`, column `q`: its two feature blocks are those rows of the two arrays the feature windows
  are over, and its weights and biases are the whole arrays. The ten row blocks cover the result, row `r` by point
  `r / 10000`. So after the run the result array is that function of the arrays the region found under its windows.
-/
import proofs.«170148_j987842478111_1_alg».proof.Proof.Gen.KernelIdeal.Value
import proofs.«170148_j987842478111_1_alg».proof.Proof.Gen.ReferenceIdeal
import proofs.«170148_j987842478111_1_alg».proof.Proof.KernelPoint
import proofs.«170148_j987842478111_1_alg».proof.Proof.KernelBlocks
import Idealize.ShloMosaic.Lib.Pipeline.Value

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.KernelBlocks

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-! The arrays under the six input windows, as the region finds them. -/

abbrev radialArr (c : Dev nD) : FVec Ideal S100000x16 .f32 := V m c (Pipeline.arrRef spec0 0)
abbrev meansArr (c : Dev nD) : FVec Ideal S100000x16 .f32 := V m c (Pipeline.arrRef spec0 1)
abbrev w1Arr (c : Dev nD) : FVec Ideal S32x128 .f32 := V m c (Pipeline.arrRef spec0 2)
abbrev b1Arr (c : Dev nD) : FVec Ideal S128 .f32 := V m c (Pipeline.arrRef spec0 3)
abbrev w2Arr (c : Dev nD) : FVec Ideal S128x32 .f32 := V m c (Pipeline.arrRef spec0 4)
abbrev b2Arr (c : Dev nD) : FVec Ideal S32 .f32 := V m c (Pipeline.arrRef spec0 5)

/-- The joined feature array: radial features in the first sixteen columns, neighbour means in the rest. -/
abbrev features (c : Dev nD) : FVec Ideal S100000x32 .f32 :=
  concatenate (⟨2, ![100000, 32]⟩ : Shape) 1
    [⟨(⟨2, ![100000, 16]⟩ : Shape), radialArr m c⟩, ⟨(⟨2, ![100000, 16]⟩ : Shape), meansArr m c⟩]
    Cert.ReferenceIdeal.Facts₀.concatenates_S100000x16_S100000x16_S100000x32_d1

/-- What the result array holds after the run: every row of the joined features through the two layers. -/
abbrev result (c : Dev nD) : FVec Ideal S100000x32 .f32 :=
  Cert.Mlp.whole (features m c) (w1Arr m c) (b1Arr m c) (w2Arr m c) (b2Arr m c)

/-! The input blocks at a point, read off those arrays. -/

theorem radial_block (c : Dev nD) (t : Fin cfg0.N) (p : Fin 10000) (j : Fin 16) :
    (iblk m c 0 t : Vec Ideal S10000x16 .f32) (ix2 p j)
      = radialArr m c (ix2 ⟨10000 * t.val + p.val, by have := p.isLt; have := point_lt t; omega⟩ j) := by
  unfold iblk
  exact radial_read (radialArr m c) t p j

theorem means_block (c : Dev nD) (t : Fin cfg0.N) (p : Fin 10000) (j : Fin 16) :
    (iblk m c 1 t : Vec Ideal S10000x16 .f32) (ix2 p j)
      = meansArr m c (ix2 ⟨10000 * t.val + p.val, by have := p.isLt; have := point_lt t; omega⟩ j) := by
  unfold iblk
  exact means_read (meansArr m c) t p j

theorem w1_block (c : Dev nD) (t : Fin cfg0.N) : (iblk m c 2 t : Vec Ideal S32x128 .f32) = w1Arr m c := by
  unfold iblk
  exact w1_read (w1Arr m c) t
theorem b1_block (c : Dev nD) (t : Fin cfg0.N) : (iblk m c 3 t : Vec Ideal S128 .f32) = b1Arr m c := by
  unfold iblk
  exact b1_read (b1Arr m c) t
theorem w2_block (c : Dev nD) (t : Fin cfg0.N) : (iblk m c 4 t : Vec Ideal S128x32 .f32) = w2Arr m c := by
  unfold iblk
  exact w2_read (w2Arr m c) t
theorem b2_block (c : Dev nD) (t : Fin cfg0.N) : (iblk m c 5 t : Vec Ideal S32 .f32) = b2Arr m c := by
  unfold iblk
  exact b2_read (b2Arr m c) t

/-- What the body leaves in its result block at point `t`, index by index. -/
theorem body_block (c : Dev nD) (t : Fin cfg0.N) (p : Fin 10000) (q : Fin 32) :
    out0_6 (iblk m c 0 t) (iblk m c 1 t) (iblk m c 2 t) (iblk m c 3 t) (iblk m c 4 t) (iblk m c 5 t) (ix2 p q)
      = result m c (ix2 ⟨10000 * t.val + p.val, by have := p.isLt; have := point_lt t; omega⟩ q) := by
  unfold out0_6
  rw [View.canon_unit_zero zeros2]
  simp only [View.ld_unit_zero (S := S10000x16) zeros2, View.ld_unit_zero (S := S32x128) zeros2,
    View.ld_unit_zero (S := S128) zeros1, View.ld_unit_zero (S := S128x32) zeros2, View.ld_unit_zero (S := S32) zeros1]
  rw [w1_block m c t, b1_block m c t, w2_block m c t, b2_block m c t]
  exact Cert.KernelPoint.point_eq (iblk m c 0 t) (iblk m c 1 t) (w1Arr m c) (b1Arr m c) (w2Arr m c) (b2Arr m c)
    (radialArr m c) (meansArr m c) Cert.ReferenceIdeal.Facts₀.concatenates_S100000x16_S100000x16_S100000x32_d1
    t.val (point_lt t) (radial_block m c t) (means_block m c t) p q

/-- What point `t` writes back is block `t` of the result. -/
theorem flushed_eq (c : Dev nD) (t : Fin cfg0.N) :
    (dats m 0 c).flushed 6 t = ((cfg0.win 6).blk t).view.read (Elt Ideal) (result m c) := by
  rw [flushed6, result_uncut]
  refine funext fun (y : S10000x32.Idx) => ?_
  obtain ⟨p, q, rfl⟩ : ∃ (p : Fin 10000) (q : Fin 32), y = ix2 p q := ⟨y 0, y 1, eq_ix2 y⟩
  rw [result_read (result m c) t p q]
  exact body_block m c t p q

/-- An index of the array is in point `t`'s block iff each coordinate is in the block's range on its axis. -/
theorem mem_block (t : Fin cfg0.N) (i : S100000x32.Idx) :
    i ∈ ((cfg0.win 6).blk t).view.set ↔ ∀ a : Fin 2, win0_6.index t a * S10000x32.size a ≤ (i a).val ∧ (i a).val < win0_6.index t a * S10000x32.size a + S10000x32.size a := by
  show i ∈ ((View.whole main_v26).slice (win0_6.rect t)).set ↔ _
  rw [View.set_slice_whole, Rect.mem_set_unit]
  exact Iff.rfl

/-- Row `r` of the result is written by point `r / 10000`. -/
theorem covered (i : S100000x32.Idx) :
    ∃ t : Fin cfg0.N, (cfg0.win 6).flush t = true ∧ i ∈ ((cfg0.win 6).blk t).view.set := by
  have hi0 : (i 0).val < 100000 := idx2_lt0 i
  have hi1 : (i 1).val < 32 := idx2_lt1 i
  obtain ⟨t, ht⟩ : ∃ t : Fin cfg0.N, t.val = (i 0).val / 10000 :=
    ⟨⟨(i 0).val / 10000, by rw [show cfg0.N = 10 from N_0]; omega⟩, rfl⟩
  obtain ⟨-, -, -, -, -, -, -, -, -, -, e0, e1⟩ := block_indices t
  refine ⟨t, flush0_6 t, ?_⟩
  rw [mem_block]
  intro a
  match a with
  | ⟨0, _⟩ => show win0_6.index t (0 : Fin 2) * 10000 ≤ (i 0).val ∧ (i 0).val < win0_6.index t (0 : Fin 2) * 10000 + 10000; rw [e0, ht]; omega
  | ⟨1, _⟩ => show win0_6.index t (1 : Fin 2) * 32 ≤ (i 1).val ∧ (i 1).val < win0_6.index t (1 : Fin 2) * 32 + 32; rw [e1]; omega

/-- The result array after the run. -/
theorem final (c : Dev nD) : (dats m 0 c).arrAt 6 cfg0.N = result m c :=
  (dats m 0 c).arrAt_eq_of_cover 6 (result m c) (fun t _ => flushed_eq m c t) covered

/-- The run, read: the result array at the two-layer function of the arrays under the windows, the arguments
    unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelValue

end
-- ==== Proof.HostHead.lean ====
/-
  What the kernel's region finds in the two arrays its host operations computed: the radial features (the first
  sixteen columns of `x`) and the neighbour means (the scatter-added conical features over the clipped degree).

  The kernel's program and the reference compute these two arrays by the same host operations, one for one, from the
  same two arguments. So each is named here by the reference's own stage of the arguments and never opened: the
  gather, the two scatter-adds, the clip and the quotient stay one opaque function on both sides. The two texts are
  set side by side operation by operation — the quotient's two operands, the scatter-add's three, the maximum's
  two — and at each the operands are already the same expressions of the arguments.
-/
import proofs.«170148_j987842478111_1_alg».proof.Proof.Gen.KernelIdeal.Frame
import proofs.«170148_j987842478111_1_alg».proof.Proof.Gen.ReferenceIdeal.Read
import Idealize.ShloMosaic.Lib.StableHlo.Run
import Idealize.ShloMosaic.PureOps.Ideal

noncomputable section

namespace Cert.HostHead

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The radial features as the region finds them: the reference's first stage of `x`. -/
theorem radial_entry (c : Dev nD) :
    (V m c main_v0 : S100000x16.Idx → EReal)
      = Cert.ReferenceIdeal.Read.val_main_v0 (F := Ideal) (m ((c : Thread nD τ).loc main_arg0)) := by
  dsimp only [V]
  simp only [hostOps0, hostOps0_1, hostOps0_2, List.flatten_cons, List.flatten_nil, List.append_nil, List.cons_append,
    List.nil_append]
  after_results
  rfl

/-- Contents at a value's type and contents of its buffer are the same thing: the buffer's type is the value's, so
    the transport along that equation is the identity. -/
theorem toBuf_id {T : BufTy} (r : Ref sig .tc) (h1 : r.ty = T) (h2 : r.space ≠ .host) (h3 : r.isScoped = false)
    (v : T.Contents (Elt Ideal)) : HEq ((TRef.of r h1 h2 h3).toBuf v) v := by
  subst h1; rfl
/-- The same, from the buffer's contents to the value's. -/
theorem ofBuf_id {T : BufTy} (r : Ref sig .tc) (h1 : r.ty = T) (h2 : r.space ≠ .host) (h3 : r.isScoped = false)
    (v : r.ty.Contents (Elt Ideal)) : HEq ((TRef.of r h1 h2 h3).ofBuf v) v := by
  subst h1; rfl

set_option maxRecDepth 8192 in
set_option maxHeartbeats 2000000 in
/-- The neighbour means as the region finds them: the reference's stage of `x` and the edge list. The quotient's
    numerator is the scatter-add of the gathered conical rows into zeros at the edges' row ends; its denominator the
    maximum of one with the scatter-add of ones at the same ends, broadcast along the columns. -/
theorem means_entry (c : Dev nD) :
    (V m c main_v25 : S100000x16.Idx → EReal)
      = Cert.ReferenceIdeal.Read.val_main_v25 (F := Ideal) (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  unfold Cert.ReferenceIdeal.Read.val_main_v25
  refine congrArg₂ (fun a b => Host.divf (F := Ideal) (s := S100000x16) (φ := .f32) a b) ?sums ?degree
  case sums =>
    unfold Cert.ReferenceIdeal.Read.val_main_v17
    refine congr (congrArg₂ (fun a b => Host.scatterAdd (F := Ideal) scatter_S100000x16_S3200000x1_S3200000x16_1_0_0_1 a b) ?init ?ends) ?rows
    case init => rfl
    case ends => rfl
    case rows => rfl
  case degree =>
    unfold Cert.ReferenceIdeal.Read.val_main_v24 Cert.ReferenceIdeal.Read.val_main_v23
    apply congrArg
    apply congrArg
    refine (eq_of_heq (toBuf_id _ _ _ _ _)).trans ?_
    unfold Cert.ReferenceIdeal.Read.val_main_v22
    refine congrArg₂ (fun a b : FVec Ideal S100000 .f32 => maximumf a b) ?one ?count
    case one =>
      refine (eq_of_heq (ofBuf_id _ _ _ _ _)).trans ?_
      refine (eq_of_heq (toBuf_id _ _ _ _ _)).trans ?_
      unfold Cert.ReferenceIdeal.Read.val_main_call0_v1
      apply congrArg
      refine (eq_of_heq (ofBuf_id _ _ _ _ _)).trans ?_
      refine (eq_of_heq (toBuf_id _ _ _ _ _)).trans ?_
      unfold Cert.ReferenceIdeal.Read.val_main_call0_v0
      apply congrArg
      refine (eq_of_heq (ofBuf_id _ _ _ _ _)).trans ?_
      rfl
    case count =>
      refine (eq_of_heq (ofBuf_id _ _ _ _ _)).trans ?_
      unfold Cert.ReferenceIdeal.Read.val_main_v21
      refine congr (congrArg₂ (fun a b => Host.scatterAdd (F := Ideal) scatter_S100000_S3200000x1_S3200000_n_0_0_1 a b) ?init ?ends) ?ones
      case init => rfl
      case ends => rfl
      case ones => rfl

end Cert.HostHead

end
-- ==== Proof.Bridge.lean ====
/-
  The kernel's result array as the reference spells it.

  The arrays the region finds under its six input windows are: the radial features and the neighbour means, which are
  the reference's own stages of `x` and the edge list (the same host operations on both sides), and the four weight
  and bias arguments as launched (no host operation writes them). Joining the first two along the columns is the
  reference's joined feature array. So the kernel's result is the two-layer function of exactly the arrays the
  reference applies it to.
-/
import proofs.«170148_j987842478111_1_alg».proof.Proof.KernelValue
import proofs.«170148_j987842478111_1_alg».proof.Proof.HostHead
import proofs.«170148_j987842478111_1_alg».proof.Proof.Gen.ReferenceIdeal.Read

noncomputable section

namespace Cert.Bridge

open Idealize.ShloMosaic Idealize.ShloMosaic.TcCoe Idealize.SL.Sem
open Cert.KernelIdeal Cert.KernelIdeal.Gen

variable (m : (ℓ : Loc nD τ sig) → Buf (Elt Ideal) ℓ)

theorem radial_arr (c : Dev nD) :
    Cert.KernelValue.radialArr m c = Cert.ReferenceIdeal.Read.val_main_v0 (F := Ideal) (m ((c : Thread nD τ).loc main_arg0)) :=
  Cert.HostHead.radial_entry m c

theorem means_arr (c : Dev nD) :
    Cert.KernelValue.meansArr m c
      = Cert.ReferenceIdeal.Read.val_main_v25 (F := Ideal) (m ((c : Thread nD τ).loc main_arg0)) (m ((c : Thread nD τ).loc main_arg1)) :=
  Cert.HostHead.means_entry m c

theorem w1_arr (c : Dev nD) : Cert.KernelValue.w1Arr m c = m ((c : Thread nD τ).loc main_arg2) := V_main_arg2 m c
theorem b1_arr (c : Dev nD) : Cert.KernelValue.b1Arr m c = m ((c : Thread nD τ).loc main_arg3) := V_main_arg3 m c
theorem w2_arr (c : Dev nD) : Cert.KernelValue.w2Arr m c = m ((c : Thread nD τ).loc main_arg4) := V_main_arg4 m c
theorem b2_arr (c : Dev nD) : Cert.KernelValue.b2Arr m c = m ((c : Thread nD τ).loc main_arg5) := V_main_arg5 m c

/-- The kernel's result array is the two-layer function of the reference's joined feature array of the arguments
    and of the weight and bias arguments. -/
theorem result_eq (c : Dev nD) :
    Cert.KernelValue.result m c
      = Cert.Mlp.whole (Cert.ReferenceIdeal.Read.val_main_v26 (F := Ideal) (m ((c : Thread nD τ).loc main_arg0)) (m ((c : Thread nD τ).loc main_arg1)))
          (m ((c : Thread nD τ).loc main_arg2)) (m ((c : Thread nD τ).loc main_arg3))
          (m ((c : Thread nD τ).loc main_arg4)) (m ((c : Thread nD τ).loc main_arg5)) := by
  unfold Cert.KernelValue.result Cert.KernelValue.features Cert.ReferenceIdeal.Read.val_main_v26
  rw [radial_arr m c, means_arr m c, w1_arr m c, b1_arr m c, w2_arr m c, b2_arr m c]

end Cert.Bridge

end
-- ==== Proof.lean ====
/-
  A graph layer's dense stage, tiled: the kernel against its reference, over the extended reals.

  Both programs split the node features `x` (a hundred thousand rows of thirty-two) into sixteen radial and sixteen
  conical columns, symmetrise the edge list, and by the same host operations form the mean of each node's neighbours'
  conical features: a gather along the edges, a scatter-add into zeros, and a quotient by the degree clipped below at
  one. Both then join the radial features with those means into thirty-two columns and send every row through two
  affine layers with a rectification between: `max (row · W1 + b1) 0 · W2 + b2`.

  The reference does the dense part with two whole matrix products. The kernel does it on a grid of ten points, point
  `t` taking rows `10000·t … 10000·t + 9999` of the radial features and of the means, the weights and biases whole, and
  writing the same rows of the result; inside, it narrows the operands to sixteen-bit floats before each product on the
  matrix unit, which at the ideal values is the identity. Row by row the two are one expression — the same sums over
  the thirty-two features and over the hundred and twenty-eight hidden units, in the same order of operations — so no
  law of the extended reals, and hence no finiteness of the inputs, is needed: the precondition is never opened.

  The modules: the row function (MlpSpec); the reference read index by index as that function of its joined feature
  array (RefIsMlp); the kernel body's stored value at an index (KernelRow), one grid point against the whole-array
  function (KernelPoint), the blocks as rows of the arrays under the windows (KernelBlocks), the result array after
  the run (KernelValue); the two host-computed arrays as the reference's own stages of the arguments (HostHead); the
  kernel's result in the reference's spelling (Bridge). Here: the three frames, the idealization's empty ledger, and
  the equality of the two results.
-/
import proofs.«170148_j987842478111_1_alg».proof.Defs
import proofs.«170148_j987842478111_1_alg».proof.Proof.Gen.Kernel
import proofs.«170148_j987842478111_1_alg».proof.Proof.Gen.Kernel.Skeleton
import proofs.«170148_j987842478111_1_alg».proof.Proof.Gen.Kernel.Launch
import proofs.«170148_j987842478111_1_alg».proof.Proof.Gen.Kernel.Points
import proofs.«170148_j987842478111_1_alg».proof.Proof.Gen.Kernel.Frame
import proofs.«170148_j987842478111_1_alg».proof.Proof.Gen.KernelIdeal
import proofs.«170148_j987842478111_1_alg».proof.Proof.Gen.KernelIdeal.Skeleton
import proofs.«170148_j987842478111_1_alg».proof.Proof.Gen.KernelIdeal.Launch
import proofs.«170148_j987842478111_1_alg».proof.Proof.Gen.KernelIdeal.Points
import proofs.«170148_j987842478111_1_alg».proof.Proof.Gen.KernelIdeal.Frame
import proofs.«170148_j987842478111_1_alg».proof.Proof.Gen.ReferenceIdeal
import proofs.«170148_j987842478111_1_alg».proof.Proof.Gen.Pre_finite_inputs
import proofs.«170148_j987842478111_1_alg».proof.Proof.Gen.KernelIdeal.Value
import proofs.«170148_j987842478111_1_alg».proof.Proof.Gen.ReferenceIdeal.Run
import proofs.«170148_j987842478111_1_alg».proof.Proof.Gen.ReferenceIdeal.Read
import proofs.«170148_j987842478111_1_alg».proof.Proof.RefIsMlp
import proofs.«170148_j987842478111_1_alg».proof.Proof.Bridge
import Idealize.ShloMosaic.Adequacy
import Idealize.ShloMosaic.Init

noncomputable section

namespace Cert.Proof

open Idealize.ShloMosaic Idealize.SL.Sem

/-- The word-level kernel runs, faults nowhere and leaves its arguments as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is host operations only: its run, with the result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at the ideal values. -/
theorem preserves : Cert.preserves_Kernel_KernelIdeal := trivial

/-- From memories that agree on the six arguments the two programs end with the same result: the kernel's array is
    the two-layer function of the joined features of the arguments (its ten row blocks, each the function on its
    rows), and the reference's result, read index by index, is that function of the same arrays. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  beta_reduce
  rw [Cert.ReferenceIdeal.Read.val_main_v35_eq, Cert.RefMlp.result_eq, Cert.Bridge.result_eq m c, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
